-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S3x128x128 .f32) (main_arg5 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S3x128x128 : Shape := ⟨3, ![3, 128, 128]⟩
abbrev S3x128 : Shape := ⟨2, ![3, 128]⟩
abbrev S1x128x128 : Shape := ⟨3, ![1, 128, 128]⟩
abbrev S128x128 : Shape := ⟨2, ![128, 128]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128 : Shape := ⟨1, ![128]⟩

abbrev nBuf : Space → Nat
  | .hbm => 73
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S3x128x128, .f32⟩
  | .hbm, ⟨5, _⟩ => ⟨S3x128, .f32⟩
  | .hbm, ⟨6, _⟩ => ⟨S1x128x128, .f32⟩
  | .hbm, ⟨7, _⟩ => ⟨S128x128, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S128, .f32⟩
  | .hbm, ⟨27, _⟩ => ⟨S1x128x128, .f32⟩
  | .hbm, ⟨28, _⟩ => ⟨S128x128, .f32⟩
  | .hbm, ⟨29, _⟩ => ⟨S1x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x1, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x1, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_v41 : Ref sig .tc := ⟨.hbm, 54, rfl⟩
abbrev main_v42 : Ref sig .tc := ⟨.hbm, 55, rfl⟩
abbrev main_c_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S3x128x128_S1x128x128_0_0_0 : S3x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S3x128x128 : Shape := ⟨3, ![3, 128, 128]⟩
abbrev S3x128 : Shape := ⟨2, ![3, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S3x128x128, .f32⟩
  | .hbm, ⟨5, _⟩ => ⟨S3x128, .f32⟩
  | .hbm, ⟨6, _⟩ => ⟨S1x128x128, .f32⟩
  | .hbm, ⟨7, _⟩ => ⟨S128x128, .f32⟩
  | .hbm, ⟨8, _⟩ => ⟨S1x128, .f32⟩
  | .hbm, ⟨9, _⟩ => ⟨S128, .f32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S1x128x128, .f32⟩
  | .hbm, ⟨34, _⟩ => ⟨S128x128, .f32⟩
  | .hbm, ⟨35, _⟩ => ⟨S1x128, .f32⟩
  | .hbm, ⟨36, _⟩ => ⟨S128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S1600000x1, .f32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S1x128x128, .f32⟩
  | .hbm, ⟨61, _⟩ => ⟨S128x128, .f32⟩
  | .hbm, ⟨62, _⟩ => ⟨S1x128, .f32⟩
  | .hbm, ⟨63, _⟩ => ⟨S128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S1600000x1, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call1_cst : Ref sig .tc := ⟨.hbm, 57, rfl⟩
abbrev main_call1_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_4 : Ref sig .tc := ⟨.hbm, 65, rfl⟩
abbrev main_v49 : Ref sig .tc := ⟨.hbm, 66, rfl⟩
abbrev main_v50 : Ref sig .tc := ⟨.hbm, 67, rfl⟩
abbrev main_c_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call2_cst : Ref sig .tc := ⟨.hbm, 84, rfl⟩
abbrev main_call2_v0 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The two whole-array functions the three graph-convolution layers are made of, at the extended reals, written with
  the reference program's own operations so that the reference's stages are these functions by unfolding:
  `lin x w` is the product of the node features `x` (100000 × 128) with a layer's weight matrix `w` (128 × 128),
  entry (n, d) the sum over k of x (n, k) · w (k, d); `act a b` adds the layer's bias row `b` (1 × 128) to every row
  of the aggregated features `a` and clamps at zero, entry (n, d) = max (a (n, d) + b (0, d)) 0.
  Both are read at an index here, once, for every use below.
-/
import proofs.«422921_j19928648254210_3_alg».proof.Proof.Gen.ReferenceIdeal.Read
import Idealize.ShloMosaic.Lib.Pipeline.Value
import Idealize.ShloMosaic.Lib.ValueIdx
import Idealize.ShloMosaic.PureOps.Ideal.Laws

noncomputable section

namespace Cert.Spec

open Cert.ReferenceIdeal Cert.ReferenceIdeal.Gen Cert.ReferenceIdeal.Read Idealize.ShloMosaic Idealize.ShloMosaic.TcCoe

/-- Node features, aggregated features, a layer's output: 100000 × 128 extended reals. -/
abbrev Arr := (⟨S100000x128, .f32⟩ : BufTy).Contents (Elt Ideal)
/-- A layer's weight matrix: 128 × 128. -/
abbrev Mat := (⟨S128x128, .f32⟩ : BufTy).Contents (Elt Ideal)
/-- A layer's bias as one row: 1 × 128. -/
abbrev Row := (⟨S1x128, .f32⟩ : BufTy).Contents (Elt Ideal)

/-- The dense transform of a layer: `x · w`, contracting the feature axis of `x` with the first axis of `w`. -/
def lin (x : Arr) (w : Mat) : Arr :=
  Host.dotGeneral (F := Ideal) (φ₁ := .f32) (φ₂ := .f32) dot_S100000x128_S128x128_S100000x128_1_0_0_1_n_n none x w

/-- Bias and rectifier of a layer: `max (a + b) 0`, the row `b` repeated down the 100000 nodes. -/
def act (a : Arr) (b : Row) : Arr :=
  maximumf (F := Ideal) (addf (F := Ideal) a (broadcastInDim S100000x128 ![0, 1] bcast_S1x128_S100000x128_0_1 b))
    (broadcastInDim S100000x128 ![] bcast_S_S100000x128 (constant (F := Ideal) S_ .f32 0x00000000#32))

/-- Entry (n, k) of the left operand that entry `i = (n, d)` of a product reads at step `k`. -/
abbrev rowAt (i : S100000x128.Idx) (k : Fin 128) : S100000x128.Idx := fun a => match a with
  | ⟨0, _⟩ => ⟨(i 0).val, (i 0).isLt⟩
  | ⟨1, _⟩ => ⟨k.val, k.isLt⟩
/-- Entry (k, d) of the weight matrix that entry `i = (n, d)` of a product reads at step `k`. -/
abbrev colAt (i : S100000x128.Idx) (k : Fin 128) : S128x128.Idx := fun a => match a with
  | ⟨0, _⟩ => ⟨k.val, k.isLt⟩
  | ⟨1, _⟩ => ⟨(i 1).val, (i 1).isLt⟩
/-- Entry (0, d) of the bias row that entry `i = (n, d)` reads. -/
abbrev biasAt (i : S100000x128.Idx) : S1x128.Idx := fun a => match a with
  | ⟨0, _⟩ => ⟨0, Nat.one_pos⟩
  | ⟨1, _⟩ => ⟨(i 1).val, (i 1).isLt⟩

/-- The product at an entry is the sum over the contracted axis: (x · w) (n, d) = ∑ k, x (n, k) · w (k, d). -/
theorem lin_apply (x : Arr) (w : Mat) (i : S100000x128.Idx) :
    lin x w i = ∑ k : Fin 128, x (rowAt i k) * w (colAt i k) := by
  unfold lin
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = rowAt i k := funext fun a => Fin.ext (by
    match a with
    | ⟨0, _⟩ => exact lhs_main_v4_0 _ _
    | ⟨1, _⟩ => exact (lhs_main_v4_1 _ _).trans hk)
  have er : dot_S100000x128_S128x128_S100000x128_1_0_0_1_n_n.rhsIdx i ((ValueIdx.contrEquiv1 dot_S100000x128_S128x128_S100000x128_1_0_0_1_n_n 128 rfl rfl).symm k) = colAt i k := funext fun a => Fin.ext (by
    match a with
    | ⟨0, _⟩ => exact (rhs_main_v4_0 _ _).trans hk
    | ⟨1, _⟩ => exact rhs_main_v4_1 _ _)
  rw [el, er]

/-- Bias and rectifier at an entry: max (a (n, d) + b (0, d)) 0. -/
theorem act_apply (a : Arr) (b : Row) (i : S100000x128.Idx) :
    act a b i = FloatOps.maximumf (FloatOps.addf (a i) (b (biasAt i))) (FloatOps.ofBits (F := Ideal) .f32 0x00000000#32) := by
  unfold act
  show FloatOps.maximumf (FloatOps.addf (a i) (broadcastInDim S100000x128 ![0, 1] bcast_S1x128_S100000x128_0_1 b i))
      (broadcastInDim S100000x128 ![] bcast_S_S100000x128 (constant (F := Ideal) S_ .f32 0x00000000#32) i) = _
  rw [broadcastInDim_apply _ bcast_S1x128_S100000x128_0_1 b i (biasAt i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ bcast_S_S100000x128 (constant (F := Ideal) S_ .f32 0x00000000#32) i (fun a => a.elim0) (fun a => a.elim0)]
  rfl

end Cert.Spec

end
-- ==== Proof.BlockProduct.lean ====
/-
  The product a block computes, at an entry. Each of the three transforming regions multiplies a 10000 × 128 block of
  node features by the layer's 128 × 128 weight matrix into a zero accumulator; at the extended reals the two format
  changes in front of the product are the identity, so entry (n, d) of the result is the plain sum over k of the block's
  entry (n, k) times the matrix's entry (k, d).
-/
import proofs.«422921_j19928648254210_3_alg».proof.Proof.Gen.KernelIdeal
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe

/-- The left operand's row coordinate is the output's row … -/
theorem lhs_0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … its column coordinate the contraction step … -/
theorem lhs_1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- … the right operand's row coordinate the contraction step … -/
theorem rhs_0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- … and its column coordinate the output's column. -/
theorem rhs_1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (n, k) of the block that entry `j = (n, d)` of the product reads at step `k`. -/
abbrev rowOf (j : S10000x128.Idx) (k : Fin 128) : S10000x128.Idx := fun a => match a with
  | ⟨0, _⟩ => ⟨(j 0).val, (j 0).isLt⟩
  | ⟨1, _⟩ => ⟨k.val, k.isLt⟩
/-- Entry (k, d) of the weight matrix that entry `j = (n, d)` of the product reads at step `k`. -/
abbrev colOf (j : S10000x128.Idx) (k : Fin 128) : S128x128.Idx := fun a => match a with
  | ⟨0, _⟩ => ⟨k.val, k.isLt⟩
  | ⟨1, _⟩ => ⟨(j 1).val, (j 1).isLt⟩

/-- A block's product into the zero accumulator, at an entry: ∑ k, l (n, k) · r (k, d). -/
theorem product_apply (l : FVec Ideal S10000x128 .bf16) (r : FVec Ideal S128x128 .bf16) (j : S10000x128.Idx) :
    matmul dot_S10000x128_S128x128_S10000x128_1_0_0_1_n_n none l r (constant (F := Ideal) S10000x128 .f32 0x00000000#32) j
      = ∑ k : Fin 128, l (rowOf j k) * r (colOf j k) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = rowOf j k := funext fun a => Fin.ext (by
    match a with
    | ⟨0, _⟩ => exact lhs_0 _ _
    | ⟨1, _⟩ => exact (lhs_1 _ _).trans hk)
  have er : dot_S10000x128_S128x128_S10000x128_1_0_0_1_n_n.rhsIdx j ((ValueIdx.contrEquiv1 dot_S10000x128_S128x128_S10000x128_1_0_0_1_n_n 128 rfl rfl).symm k) = colOf j k := funext fun a => Fin.ext (by
    match a with
    | ⟨0, _⟩ => exact (rhs_0 _ _).trans hk
    | ⟨1, _⟩ => exact rhs_1 _ _)
  rw [el, er]

end Cert.KernelIdeal.BlockProduct

end
-- ==== Proof.Region0.lean ====
/-
  The first transforming region: every 10000-row block of the node features is multiplied by the first layer's 128 × 128
  weight matrix. Read as one array, the region's result is `Spec.lin x w` of the two arrays as the region finds them:
  entry (n, d) of block t is entry (10000 t + n, d) of the array, the weight matrix is the same whole block at every
  point, and the ten blocks tile the 100000 rows.
-/
import proofs.«422921_j19928648254210_3_alg».proof.Proof.KernelIdealFrame
import proofs.«422921_j19928648254210_3_alg».proof.Proof.Spec
import proofs.«422921_j19928648254210_3_alg».proof.Proof.BlockProduct
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.GenP Cert.KernelIdeal.BlockProduct Idealize.ShloMosaic Idealize.ShloMosaic.TcCoe Idealize.SL.Sem
open Idealize.ShloMosaic.Pipeline (Dat)
open Idealize.ShloMosaic.ValueIdx (maximumf_apply addf_apply broadcast_apply truncf_apply)

variable (V : (c : Dev nD) → (b : Ref sig .tc) → Buf (Elt Ideal) ((c : Thread nD τ).loc b))

theorem origin : (![0, 0] : Fin 2 → Nat) = fun _ => 0 := funext fun a => by fin_cases a <;> rfl

/-- What the body stores, at an entry (n, d) of the block: the sum over k of x (n, k) times w (k, d). -/
theorem stored_apply (x0 : Vec Ideal S10000x128 .f32) (x1 : Vec Ideal S128x128 .f32) (j : S10000x128.Idx) :
    k0_pay1 (F := Ideal) x0 x1 j = ∑ k : Fin 128, x0 (rowOf j k) * x1 (colOf j k) := by
  unfold k0_pay1
  rw [product_apply]
  refine Finset.sum_congr rfl fun k _ => ?_
  rw [truncf_apply, truncf_apply, shapeCast_self]

/-- The printed index maps over the ten points: the input block moves with the output block down the rows, the whole
    blocks never move, and the output's block index is the point's number. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

/-- Every one of the ten row blocks is some point's. -/
theorem idx_onto : ∀ q : Fin 10, ∃ t : Fin cfg0.N, win0_2.index t = ![q.val, 0] :=
  (by decide +kernel : ∀ q : Fin 10, ∃ t : Fin grid0.N, win0_2.index t = ![q.val, 0])

/-- A block of the node features is the array read through the block's rectangle … -/
theorem read0 (c : Dev nD) (t : Fin cfg0.N) (y : S10000x128.Idx) :
    iblk0 V c 0 t y = V c main_arg0 (((cfg0.win 0).blk t).view.emb y) := rfl
/-- … and the weight matrix's block likewise. -/
theorem read1 (c : Dev nD) (t : Fin cfg0.N) (y : S128x128.Idx) :
    iblk0 V c 1 t y = V c main_v1 (((cfg0.win 1).blk t).view.emb y) := rfl

/-- What point `t` writes back is block `t` of the product of the whole arrays. -/
theorem flushed_eq (c : Dev nD) (t : Fin cfg0.N) :
    (dat0 V c).flushed 2 t = ((cfg0.win 2).blk t).view.read (Elt Ideal) (Spec.lin (V c main_arg0) (V c main_v1)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := idx_facts t
  funext j
  show k0_pay1 (iblk0 V c 0 t) (iblk0 V c 1 t) j = (Spec.lin (V c main_arg0) (V c main_v1)) (((cfg0.win 2).blk t).view.emb j)
  rw [stored_apply, Spec.lin_apply]
  refine Finset.sum_congr rfl fun k _ => ?_
  have h0 : ((cfg0.win 0).blk t).view.emb (rowOf j k) = Spec.rowAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (colOf j k) = Spec.colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [read0 V c t (rowOf j k), read1 V c t (colOf j k), h0, h1]

/-- An entry of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v2).slice (win0_2.rect t)).set ↔ _
  rw [View.set_slice_whole, Rect.mem_set_unit]
  exact Iff.rfl

/-- The ten blocks tile the array: row r lies in the block of point r / 10000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The region's result array, whatever contents the region is entered from. -/
theorem final (c : Dev nD) : (dat0 V c).arrAt 2 cfg0.N = Spec.lin (V c main_arg0) (V c main_v1) :=
  (dat0 V c).arrAt_eq_of_cover 2 _ (fun t _ => flushed_eq V c t) covered

end Cert.KernelIdeal.Region0

end
-- ==== Proof.Region1.lean ====
/-
  A transforming region with the previous layer's bias and rectifier folded in: every 10000-row block of the aggregated
  features has the bias row added, is clamped at zero, and is multiplied by the layer's 128 × 128 weight matrix. Read as
  one array, the region's result is `Spec.lin (Spec.act a b) w` of the three arrays as the region finds them: entry (n, d)
  of block t is entry (10000 t + n, d) of the array, the bias row and the weight matrix are the same whole blocks at every
  point, and the ten blocks tile the 100000 rows.
-/
import proofs.«422921_j19928648254210_3_alg».proof.Proof.KernelIdealFrame
import proofs.«422921_j19928648254210_3_alg».proof.Proof.Spec
import proofs.«422921_j19928648254210_3_alg».proof.Proof.BlockProduct
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.GenP Cert.KernelIdeal.BlockProduct Idealize.ShloMosaic Idealize.ShloMosaic.TcCoe Idealize.SL.Sem
open Idealize.ShloMosaic.Pipeline (Dat)
open Idealize.ShloMosaic.ValueIdx (maximumf_apply addf_apply broadcast_apply truncf_apply)

variable (V : (c : Dev nD) → (b : Ref sig .tc) → Buf (Elt Ideal) ((c : Thread nD τ).loc b))

theorem origin : (![0, 0] : Fin 2 → Nat) = fun _ => 0 := funext fun a => by fin_cases a <;> rfl

/-- The bias row's entry over column d of a block. -/
abbrev biasOf (j : S10000x128.Idx) : S1x128.Idx := fun a => match a with
  | ⟨0, _⟩ => ⟨0, Nat.one_pos⟩
  | ⟨1, _⟩ => ⟨(j 1).val, (j 1).isLt⟩

/-- What the body stores, at an entry (n, d) of the block: the sum over k of max (a (n, k) + b (0, k)) 0 times w (k, d). -/
theorem stored_apply (x0 : Vec Ideal S10000x128 .f32) (x1 : Vec Ideal S1x128 .f32) (x2 : Vec Ideal S128x128 .f32) (j : S10000x128.Idx) :
    k1_pay1 (F := Ideal) x0 x1 x2 j = ∑ k : Fin 128, max (x0 (rowOf j k) + x1 (biasOf (rowOf j k))) (FloatOps.ofBits (F := Ideal) .f32 0x00000000#32) * x2 (colOf j k) := by
  unfold k1_pay1
  rw [product_apply]
  refine Finset.sum_congr rfl fun k _ => ?_
  rw [truncf_apply, truncf_apply, maximumf_apply, addf_apply, broadcast_apply, shapeCast_self, shapeCast_self, shapeCast_self,
    broadcastTo_apply _ broadcasts_S1x128_S10000x128 (rowOf j k) (biasOf (rowOf j k)) (fun a => match a with
      | ⟨0, _⟩ => by show 0 = if (1 : Nat) = 1 then 0 else _; rw [if_pos rfl]
      | ⟨1, _⟩ => by show k.val = if (128 : Nat) = 1 then 0 else _; rw [if_neg (by decide)]; rfl)]

/-- The printed index maps over the ten points: the input block moves with the output block down the rows, the whole
    blocks never move, and the output's block index is the point's number. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every one of the ten row blocks is some point's. -/
theorem idx_onto : ∀ q : Fin 10, ∃ t : Fin cfg1.N, win1_3.index t = ![q.val, 0] :=
  (by decide +kernel : ∀ q : Fin 10, ∃ t : Fin grid1.N, win1_3.index t = ![q.val, 0])

/-- A block of the aggregated features is the array read through the block's rectangle … -/
theorem read0 (c : Dev nD) (t : Fin cfg1.N) (y : S10000x128.Idx) :
    iblk1 V c 0 t y = V c main_v15 (((cfg1.win 0).blk t).view.emb y) := rfl
/-- … the bias row's block likewise … -/
theorem read1 (c : Dev nD) (t : Fin cfg1.N) (y : S1x128.Idx) :
    iblk1 V c 1 t y = V c main_v20 (((cfg1.win 1).blk t).view.emb y) := rfl
/-- … and the weight matrix's. -/
theorem read2 (c : Dev nD) (t : Fin cfg1.N) (y : S128x128.Idx) :
    iblk1 V c 2 t y = V c main_v19 (((cfg1.win 2).blk t).view.emb y) := rfl

/-- What point `t` writes back is block `t` of the product of the whole arrays. -/
theorem flushed_eq (c : Dev nD) (t : Fin cfg1.N) :
    (dat1 V c).flushed 3 t = ((cfg1.win 3).blk t).view.read (Elt Ideal) (Spec.lin (Spec.act (V c main_v15) (V c main_v20)) (V c main_v19)) := by
  show (cfg1.win 3).cut (grid1.coords t) ((dat1 V c).after 3 t) = _
  rw [after1_3]
  unfold out1_3
  rw [View.canon_unit_zero origin]
  simp only [View.ld_unit_zero (S := S10000x128) origin, View.ld_unit_zero (S := S1x128) origin, View.ld_unit_zero (S := S128x128) origin]
  obtain ⟨e0, e1, e2, e3, e4, e5, e6, e7⟩ := idx_facts t
  funext j
  show k1_pay1 (iblk1 V c 0 t) (iblk1 V c 1 t) (iblk1 V c 2 t) j = (Spec.lin (Spec.act (V c main_v15) (V c main_v20)) (V c main_v19)) (((cfg1.win 3).blk t).view.emb j)
  rw [stored_apply, Spec.lin_apply]
  refine Finset.sum_congr rfl fun k _ => ?_
  rw [Spec.act_apply]
  have h0 : ((cfg1.win 0).blk t).view.emb (rowOf j k) = Spec.rowAt (((cfg1.win 3).blk t).view.emb j) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  have h1 : ((cfg1.win 1).blk t).view.emb (biasOf (rowOf j k)) = Spec.biasAt (Spec.rowAt (((cfg1.win 3).blk t).view.emb j) k) := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (colOf j k) = Spec.colAt (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [read0 V c t (rowOf j k), read1 V c t (biasOf (rowOf j k)), read2 V c t (colOf j k), h0, h1, h2]
  rfl

/-- An entry of the array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v21).slice (win1_3.rect t)).set ↔ _
  rw [View.set_slice_whole, Rect.mem_set_unit]
  exact Iff.rfl

/-- The ten blocks tile the array: row r lies in the block of point r / 10000. -/
theorem covered (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The region's result array, whatever contents the region is entered from. -/
theorem final (c : Dev nD) : (dat1 V c).arrAt 3 cfg1.N = Spec.lin (Spec.act (V c main_v15) (V c main_v20)) (V c main_v19) :=
  (dat1 V c).arrAt_eq_of_cover 3 _ (fun t _ => flushed_eq V c t) covered

end Cert.KernelIdeal.Region1

end
-- ==== Proof.Region2.lean ====
/-
  A transforming region with the previous layer's bias and rectifier folded in: every 10000-row block of the aggregated
  features has the bias row added, is clamped at zero, and is multiplied by the layer's 128 × 128 weight matrix. Read as
  one array, the region's result is `Spec.lin (Spec.act a b) w` of the three arrays as the region finds them: entry (n, d)
  of block t is entry (10000 t + n, d) of the array, the bias row and the weight matrix are the same whole blocks at every
  point, and the ten blocks tile the 100000 rows.
-/
import proofs.«422921_j19928648254210_3_alg».proof.Proof.KernelIdealFrame
import proofs.«422921_j19928648254210_3_alg».proof.Proof.Spec
import proofs.«422921_j19928648254210_3_alg».proof.Proof.BlockProduct
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.GenP Cert.KernelIdeal.BlockProduct Idealize.ShloMosaic Idealize.ShloMosaic.TcCoe Idealize.SL.Sem
open Idealize.ShloMosaic.Pipeline (Dat)
open Idealize.ShloMosaic.ValueIdx (maximumf_apply addf_apply broadcast_apply truncf_apply)

variable (V : (c : Dev nD) → (b : Ref sig .tc) → Buf (Elt Ideal) ((c : Thread nD τ).loc b))

theorem origin : (![0, 0] : Fin 2 → Nat) = fun _ => 0 := funext fun a => by fin_cases a <;> rfl

/-- The bias row's entry over column d of a block. -/
abbrev biasOf (j : S10000x128.Idx) : S1x128.Idx := fun a => match a with
  | ⟨0, _⟩ => ⟨0, Nat.one_pos⟩
  | ⟨1, _⟩ => ⟨(j 1).val, (j 1).isLt⟩

/-- What the body stores, at an entry (n, d) of the block: the sum over k of max (a (n, k) + b (0, k)) 0 times w (k, d). -/
theorem stored_apply (x0 : Vec Ideal S10000x128 .f32) (x1 : Vec Ideal S1x128 .f32) (x2 : Vec Ideal S128x128 .f32) (j : S10000x128.Idx) :
    k2_pay1 (F := Ideal) x0 x1 x2 j = ∑ k : Fin 128, max (x0 (rowOf j k) + x1 (biasOf (rowOf j k))) (FloatOps.ofBits (F := Ideal) .f32 0x00000000#32) * x2 (colOf j k) := by
  unfold k2_pay1
  rw [product_apply]
  refine Finset.sum_congr rfl fun k _ => ?_
  rw [truncf_apply, truncf_apply, maximumf_apply, addf_apply, broadcast_apply, shapeCast_self, shapeCast_self, shapeCast_self,
    broadcastTo_apply _ broadcasts_S1x128_S10000x128 (rowOf j k) (biasOf (rowOf j k)) (fun a => match a with
      | ⟨0, _⟩ => by show 0 = if (1 : Nat) = 1 then 0 else _; rw [if_pos rfl]
      | ⟨1, _⟩ => by show k.val = if (128 : Nat) = 1 then 0 else _; rw [if_neg (by decide)]; rfl)]

/-- The printed index maps over the ten points: the input block moves with the output block down the rows, the whole
    blocks never move, and the output's block index is the point's number. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 9 ∧ win2_3.index t (1 : Fin 2) = 0 :=
  (by decide +kernel : ∀ t : Fin grid2.N, _)

/-- Every one of the ten row blocks is some point's. -/
theorem idx_onto : ∀ q : Fin 10, ∃ t : Fin cfg2.N, win2_3.index t = ![q.val, 0] :=
  (by decide +kernel : ∀ q : Fin 10, ∃ t : Fin grid2.N, win2_3.index t = ![q.val, 0])

/-- A block of the aggregated features is the array read through the block's rectangle … -/
theorem read0 (c : Dev nD) (t : Fin cfg2.N) (y : S10000x128.Idx) :
    iblk2 V c 0 t y = V c main_v34 (((cfg2.win 0).blk t).view.emb y) := rfl
/-- … the bias row's block likewise … -/
theorem read1 (c : Dev nD) (t : Fin cfg2.N) (y : S1x128.Idx) :
    iblk2 V c 1 t y = V c main_v39 (((cfg2.win 1).blk t).view.emb y) := rfl
/-- … and the weight matrix's. -/
theorem read2 (c : Dev nD) (t : Fin cfg2.N) (y : S128x128.Idx) :
    iblk2 V c 2 t y = V c main_v38 (((cfg2.win 2).blk t).view.emb y) := rfl

/-- What point `t` writes back is block `t` of the product of the whole arrays. -/
theorem flushed_eq (c : Dev nD) (t : Fin cfg2.N) :
    (dat2 V c).flushed 3 t = ((cfg2.win 3).blk t).view.read (Elt Ideal) (Spec.lin (Spec.act (V c main_v34) (V c main_v39)) (V c main_v38)) := by
  show (cfg2.win 3).cut (grid2.coords t) ((dat2 V c).after 3 t) = _
  rw [after2_3]
  unfold out2_3
  rw [View.canon_unit_zero origin]
  simp only [View.ld_unit_zero (S := S10000x128) origin, View.ld_unit_zero (S := S1x128) origin, View.ld_unit_zero (S := S128x128) origin]
  obtain ⟨e0, e1, e2, e3, e4, e5, e6, e7⟩ := idx_facts t
  funext j
  show k2_pay1 (iblk2 V c 0 t) (iblk2 V c 1 t) (iblk2 V c 2 t) j = (Spec.lin (Spec.act (V c main_v34) (V c main_v39)) (V c main_v38)) (((cfg2.win 3).blk t).view.emb j)
  rw [stored_apply, Spec.lin_apply]
  refine Finset.sum_congr rfl fun k _ => ?_
  rw [Spec.act_apply]
  have h0 : ((cfg2.win 0).blk t).view.emb (rowOf j k) = Spec.rowAt (((cfg2.win 3).blk t).view.emb j) k := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 128 + 1 * k.val = k.val; omega
  have h1 : ((cfg2.win 1).blk t).view.emb (biasOf (rowOf j k)) = Spec.biasAt (Spec.rowAt (((cfg2.win 3).blk t).view.emb j) k) := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ((cfg2.win 2).blk t).view.emb (colOf j k) = Spec.colAt (((cfg2.win 3).blk t).view.emb j) k := by
    funext a; apply Fin.ext
    match a with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega
  rw [read0 V c t (rowOf j k), read1 V c t (biasOf (rowOf j k)), read2 V c t (colOf j k), h0, h1, h2]
  rfl

/-- An entry of the array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v40).slice (win2_3.rect t)).set ↔ _
  rw [View.set_slice_whole, Rect.mem_set_unit]
  exact Iff.rfl

/-- The ten blocks tile the array: row r lies in the block of point r / 10000. -/
theorem covered (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The region's result array, whatever contents the region is entered from. -/
theorem final (c : Dev nD) : (dat2 V c).arrAt 3 cfg2.N = Spec.lin (Spec.act (V c main_v34) (V c main_v39)) (V c main_v38) :=
  (dat2 V c).arrAt_eq_of_cover 3 _ (fun t _ => flushed_eq V c t) covered

end Cert.KernelIdeal.Region2

end
-- ==== Proof.Region3.lean ====
/-
  The last region: every 10000-row block of the aggregated features has the last layer's bias row added and is clamped
  at zero. Read as one array, the region's result is `Spec.act` of the aggregated features and the bias row as the
  region finds them: entry (n, d) of block t is entry (10000 t + n, d) of the array, the bias row is the same whole
  1 × 128 block at every point, and the ten blocks tile the 100000 rows.
-/
import proofs.«422921_j19928648254210_3_alg».proof.Proof.KernelIdealFrame
import proofs.«422921_j19928648254210_3_alg».proof.Proof.Spec
import Idealize.ShloMosaic.Lib.Pipeline.Value
import Idealize.ShloMosaic.Lib.ValueIdx

set_option maxRecDepth 16384

noncomputable section

namespace Cert.KernelIdeal.Region3

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx (maximumf_apply addf_apply broadcast_apply truncf_apply)

variable (V : (c : Dev nD) → (b : Ref sig .tc) → Buf (Elt Ideal) ((c : Thread nD τ).loc b))

theorem origin : (![0, 0] : Fin 2 → Nat) = fun _ => 0 := funext fun a => by fin_cases a <;> rfl

/-- The bias row's entry over column d of a block. -/
abbrev biasOf (j : S10000x128.Idx) : S1x128.Idx := fun a => match a with
  | ⟨0, _⟩ => ⟨0, Nat.one_pos⟩
  | ⟨1, _⟩ => ⟨(j 1).val, (j 1).isLt⟩

/-- What the body stores, at an entry of the block: max (a (n, d) + b (0, d)) 0. -/
theorem stored_apply (x0 : Vec Ideal S10000x128 .f32) (x1 : Vec Ideal S1x128 .f32) (j : S10000x128.Idx) :
    k3_pay1 (F := Ideal) x0 x1 j
      = FloatOps.maximumf (FloatOps.addf (x0 j) (x1 (biasOf j))) (FloatOps.ofBits (F := Ideal) .f32 0x00000000#32) := by
  unfold k3_pay1
  rw [maximumf_apply, addf_apply, broadcast_apply, shapeCast_self, shapeCast_self,
    broadcastTo_apply _ broadcasts_S1x128_S10000x128 j (biasOf j) (fun a => match a with
      | ⟨0, _⟩ => by show 0 = if (1 : Nat) = 1 then 0 else _; rw [if_pos rfl]
      | ⟨1, _⟩ => by show (j 1).val = if (128 : Nat) = 1 then 0 else _; rw [if_neg (by decide)]; rfl)]
  rfl

/-- The printed index maps over the ten points: the input block moves with the output block down the rows, the bias
    row's block never moves, and the output's block index is the point's number. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) ≤ 9 ∧ win3_2.index t (1 : Fin 2) = 0 :=
  (by decide +kernel : ∀ t : Fin grid3.N, _)

/-- Every one of the ten row blocks is some point's. -/
theorem idx_onto : ∀ q : Fin 10, ∃ t : Fin cfg3.N, win3_2.index t = ![q.val, 0] :=
  (by decide +kernel : ∀ q : Fin 10, ∃ t : Fin grid3.N, win3_2.index t = ![q.val, 0])

/-- A block of the aggregated features is the array read through the block's rectangle. -/
theorem read0 (c : Dev nD) (t : Fin cfg3.N) (y : S10000x128.Idx) :
    iblk3 V c 0 t y = V c main_v53 (((cfg3.win 0).blk t).view.emb y) := rfl
/-- The bias row's block likewise. -/
theorem read1 (c : Dev nD) (t : Fin cfg3.N) (y : S1x128.Idx) :
    iblk3 V c 1 t y = V c main_v56 (((cfg3.win 1).blk t).view.emb y) := rfl

/-- What point `t` writes back is block `t` of `Spec.act` of the two arrays. -/
theorem flushed_eq (c : Dev nD) (t : Fin cfg3.N) :
    (dat3 V c).flushed 2 t = ((cfg3.win 2).blk t).view.read (Elt Ideal) (Spec.act (V c main_v53) (V c main_v56)) := by
  show (cfg3.win 2).cut (grid3.coords t) ((dat3 V c).after 2 t) = _
  rw [after3_2]
  unfold out3_2
  rw [View.canon_unit_zero origin]
  simp only [View.ld_unit_zero (S := S10000x128) origin, View.ld_unit_zero (S := S1x128) origin]
  obtain ⟨e0, e1, e2, e3, e4, e5⟩ := idx_facts t
  funext j
  show k3_pay1 (iblk3 V c 0 t) (iblk3 V c 1 t) j = Spec.act (V c main_v53) (V c main_v56) (((cfg3.win 2).blk t).view.emb j)
  rw [stored_apply, Spec.act_apply]
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (biasOf j) = Spec.biasAt (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [read0 V c t j, read1 V c t (biasOf j), h0, h1]

/-- An entry of the array is in point `t`'s block iff each coordinate is in the block's range on its axis. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v57).slice (win3_2.rect t)).set ↔ _
  rw [View.set_slice_whole, Rect.mem_set_unit]
  exact Iff.rfl

/-- The ten blocks tile the array: row r lies in the block of point r / 10000. -/
theorem covered (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The region's result array: bias and rectifier of the aggregated features, whatever contents the region is entered from. -/
theorem final (c : Dev nD) : (dat3 V c).arrAt 2 cfg3.N = Spec.act (V c main_v53) (V c main_v56) :=
  (dat3 V c).arrAt_eq_of_cover 2 _ (fun t _ => flushed_eq V c t) (covered)

end Cert.KernelIdeal.Region3

end
-- ==== Proof.Aggregate.lean ====
/-
  The message passing of a layer as ONE function of the transformed features and the graph: gather the feature row of
  every edge's source node, scale it by the edge's weight, and add it into the row of the edge's destination node
  (`h[src] · w` summed by `dst`). Kernel and reference run the same host operations for it, so it is never opened: a
  layer's aggregate on either side is this function of what went in. Also here: a 128-vector laid out as a 1 × 128 row is
  the same row whether it is reshaped or broadcast into that shape.
-/
import proofs.«422921_j19928648254210_3_alg».proof.Proof.Spec

noncomputable section

namespace Cert.Spec

open Cert.ReferenceIdeal Cert.ReferenceIdeal.Gen Cert.ReferenceIdeal.Read Idealize.ShloMosaic Idealize.ShloMosaic.TcCoe

variable {F : FTy → Type} [FloatOps F]

/-- `agg h src dst w`: row n of the result is the sum, over the edges e with dst e = n, of w e · (row src e of h); the index
    arithmetic on `src` (a negative index counted from the end) and the three layout steps are the host's own. -/
def agg (h : (⟨S100000x128, .f32⟩ : BufTy).Contents (Elt F)) (src dst : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1 (val_main_v15 (F := F)) (val_main_v16 (F := F) dst)
    (mulf (Host.gather gather_S100000x128_S1600000x1_S1600000x128_1_0_n_n_0_1_1128 h (val_main_v10 (F := F) src)) (val_main_v13 (F := F) w))

/-- The reference's first aggregate is `agg` of its first product … -/
theorem ref_agg1 (x0 : (⟨S100000x128, .f32⟩ : BufTy).Contents (Elt F)) (x1 x2 : (⟨S1600000, .i32⟩ : BufTy).Contents (Elt F))
    (x3 : (⟨S1600000, .f32⟩ : BufTy).Contents (Elt F)) (x4 : (⟨S3x128x128, .f32⟩ : BufTy).Contents (Elt F)) :
    val_main_v17 (F := F) x0 x1 x2 x3 x4 = agg (val_main_v4 (F := F) x0 x4) x1 x2 x3 := rfl
/-- … its second of its second … -/
theorem ref_agg2 (x0 : (⟨S100000x128, .f32⟩ : BufTy).Contents (Elt F)) (x1 x2 : (⟨S1600000, .i32⟩ : BufTy).Contents (Elt F))
    (x3 : (⟨S1600000, .f32⟩ : BufTy).Contents (Elt F)) (x4 : (⟨S3x128x128, .f32⟩ : BufTy).Contents (Elt F)) (x5 : (⟨S3x128, .f32⟩ : BufTy).Contents (Elt F)) :
    val_main_v39 (F := F) x0 x1 x2 x3 x4 x5 = agg (val_main_v26 (F := F) x0 x1 x2 x3 x4 x5) x1 x2 x3 := rfl
/-- … and its third of its third. -/
theorem ref_agg3 (x0 : (⟨S100000x128, .f32⟩ : BufTy).Contents (Elt F)) (x1 x2 : (⟨S1600000, .i32⟩ : BufTy).Contents (Elt F))
    (x3 : (⟨S1600000, .f32⟩ : BufTy).Contents (Elt F)) (x4 : (⟨S3x128x128, .f32⟩ : BufTy).Contents (Elt F)) (x5 : (⟨S3x128, .f32⟩ : BufTy).Contents (Elt F)) :
    val_main_v61 (F := F) x0 x1 x2 x3 x4 x5 = agg (val_main_v48 (F := F) x0 x1 x2 x3 x4 x5) x1 x2 x3 := rfl

/-- A 128-vector reshaped to a 1 × 128 row is the vector broadcast into the row's second axis: entry (0, d) is entry d. -/
theorem row_of_vector {α : Type} (y : S128.Idx → α) (h : S128.ShapeCasts S1x128) :
    shapeCast S1x128 y h = broadcastInDim S1x128 ![1] bcast_S128_S1x128_1 y := by
  funext i
  have hi0 : (i 0).val < 1 := (i 0).isLt
  rw [shapeCast_apply y h i (idx_main_v18 i) (by
      rewrite [Shape.rowMajor_val_two, Shape.rowMajor_val_one]
      show (i 1).val = (i 0).val * 128 + (i 1).val
      omega),
    broadcastInDim_apply _ bcast_S128_S1x128_1 y i (idx_main_v18 i) (fun a => match a with
      | ⟨0, _⟩ => by show (i 1).val = if (128 : Nat) = 1 then 0 else (i 1).val; rw [if_neg (by decide)])]

end Cert.Spec

end
-- ==== Proof.HostSide.lean ====
/-
  The host operations between the regions, read at the buffers the regions take, from ANY contents `W` of the
  TensorCore's buffers at the stretch's start. Each stretch slices the layer's weight matrix and bias out of the stacked
  parameters and, after the first region, runs the message passing on the region's product: the aggregate is
  `Spec.agg` of the product and the graph, the weight matrix and the bias row are the reference's own slices, and the
  graph and the parameters themselves are not written by any stretch.
-/
import proofs.«422921_j19928648254210_3_alg».proof.Proof.KernelIdealLaunch
import proofs.«422921_j19928648254210_3_alg».proof.Proof.Aggregate
import Idealize.ShloMosaic.Lib.StableHlo.Run

noncomputable section

namespace Cert.KernelIdeal.HostSide

open Cert.KernelIdeal Cert.KernelIdeal.Gen Cert.KernelIdeal.GenP Cert.ReferenceIdeal.Read
open Idealize.ShloMosaic Idealize.ShloMosaic.TcCoe Idealize.ShloMosaic.StableHlo

variable {F : FTy → Type} [FloatOps F] (W : Valuation τ sig (Elt F))

/-! ## Before the first region: the first layer's weight matrix is sliced out -/

theorem kept0_arg0 : after (hostOps0 (F := F)) W (Proc.devRef .tc main_arg0) = W (Proc.devRef .tc main_arg0) := by after_results
theorem kept0_arg1 : after (hostOps0 (F := F)) W (Proc.devRef .tc main_arg1) = W (Proc.devRef .tc main_arg1) := by after_results
theorem kept0_arg2 : after (hostOps0 (F := F)) W (Proc.devRef .tc main_arg2) = W (Proc.devRef .tc main_arg2) := by after_results
theorem kept0_arg3 : after (hostOps0 (F := F)) W (Proc.devRef .tc main_arg3) = W (Proc.devRef .tc main_arg3) := by after_results
theorem kept0_arg4 : after (hostOps0 (F := F)) W (Proc.devRef .tc main_arg4) = W (Proc.devRef .tc main_arg4) := by after_results
theorem kept0_arg5 : after (hostOps0 (F := F)) W (Proc.devRef .tc main_arg5) = W (Proc.devRef .tc main_arg5) := by after_results
/-- The first layer's weight matrix, as the reference slices it. -/
theorem weight0 : after (hostOps0 (F := F)) W (Proc.devRef .tc main_v1) = val_main_v1 (F := F) (W (Proc.devRef .tc main_arg4)) := by
  after_results <;> rfl

/-! ## Between the first and the second region -/

theorem kept1_arg1 : after (hostOps1 (F := F)) W (Proc.devRef .tc main_arg1) = W (Proc.devRef .tc main_arg1) := by after_results
theorem kept1_arg2 : after (hostOps1 (F := F)) W (Proc.devRef .tc main_arg2) = W (Proc.devRef .tc main_arg2) := by after_results
theorem kept1_arg3 : after (hostOps1 (F := F)) W (Proc.devRef .tc main_arg3) = W (Proc.devRef .tc main_arg3) := by after_results
theorem kept1_arg4 : after (hostOps1 (F := F)) W (Proc.devRef .tc main_arg4) = W (Proc.devRef .tc main_arg4) := by after_results
theorem kept1_arg5 : after (hostOps1 (F := F)) W (Proc.devRef .tc main_arg5) = W (Proc.devRef .tc main_arg5) := by after_results
set_option maxHeartbeats 2000000 in
/-- The first aggregate: message passing on the first region's product. -/
theorem agg1 : after (hostOps1 (F := F)) W (Proc.devRef .tc main_v15)
    = Cert.Spec.agg (W (Proc.devRef .tc main_v2)) (W (Proc.devRef .tc main_arg1)) (W (Proc.devRef .tc main_arg2)) (W (Proc.devRef .tc main_arg3)) := by
  after_results_simp <;> rfl
/-- The first layer's bias as a row. -/
theorem bias1 : after (hostOps1 (F := F)) W (Proc.devRef .tc main_v20) = val_main_v18 (F := F) (W (Proc.devRef .tc main_arg5)) := by
  after_results
  exact Cert.Spec.row_of_vector _ _
/-- The second layer's weight matrix. -/
theorem weight1 : after (hostOps1 (F := F)) W (Proc.devRef .tc main_v19) = val_main_v23 (F := F) (W (Proc.devRef .tc main_arg4)) := by
  after_results <;> rfl

/-! ## Between the second and the third region -/

theorem kept2_arg1 : after (hostOps2 (F := F)) W (Proc.devRef .tc main_arg1) = W (Proc.devRef .tc main_arg1) := by after_results
theorem kept2_arg2 : after (hostOps2 (F := F)) W (Proc.devRef .tc main_arg2) = W (Proc.devRef .tc main_arg2) := by after_results
theorem kept2_arg3 : after (hostOps2 (F := F)) W (Proc.devRef .tc main_arg3) = W (Proc.devRef .tc main_arg3) := by after_results
theorem kept2_arg4 : after (hostOps2 (F := F)) W (Proc.devRef .tc main_arg4) = W (Proc.devRef .tc main_arg4) := by after_results
theorem kept2_arg5 : after (hostOps2 (F := F)) W (Proc.devRef .tc main_arg5) = W (Proc.devRef .tc main_arg5) := by after_results
set_option maxHeartbeats 2000000 in
/-- The second aggregate. -/
theorem agg2 : after (hostOps2 (F := F)) W (Proc.devRef .tc main_v34)
    = Cert.Spec.agg (W (Proc.devRef .tc main_v21)) (W (Proc.devRef .tc main_arg1)) (W (Proc.devRef .tc main_arg2)) (W (Proc.devRef .tc main_arg3)) := by
  after_results_simp <;> rfl
/-- The second layer's bias as a row. -/
theorem bias2 : after (hostOps2 (F := F)) W (Proc.devRef .tc main_v39) = val_main_v40 (F := F) (W (Proc.devRef .tc main_arg5)) := by
  after_results
  exact Cert.Spec.row_of_vector _ _
/-- The third layer's weight matrix. -/
theorem weight2 : after (hostOps2 (F := F)) W (Proc.devRef .tc main_v38) = val_main_v45 (F := F) (W (Proc.devRef .tc main_arg4)) := by
  after_results <;> rfl

/-! ## Between the third and the last region -/

set_option maxHeartbeats 2000000 in
/-- The third aggregate. -/
theorem agg3 : after (hostOps3 (F := F)) W (Proc.devRef .tc main_v53)
    = Cert.Spec.agg (W (Proc.devRef .tc main_v40)) (W (Proc.devRef .tc main_arg1)) (W (Proc.devRef .tc main_arg2)) (W (Proc.devRef .tc main_arg3)) := by
  after_results_simp <;> rfl
/-- The third layer's bias as a row. -/
theorem bias3 : after (hostOps3 (F := F)) W (Proc.devRef .tc main_v56) = val_main_v62 (F := F) (W (Proc.devRef .tc main_arg5)) := by
  after_results
  exact Cert.Spec.row_of_vector _ _

end Cert.KernelIdeal.HostSide

end
-- ==== Proof.KernelValue.lean ====
/-
  The kernel's result as the reference's own term. Layer by layer, from the launch memory `m` through the four regions
  and the host stretches between them, the buffers the next step reads hold the reference's stages of the arguments:
  the first region's product is the reference's first product (`Spec.lin` of the node features and the first weight
  matrix), each aggregate is `Spec.agg` of the product before it, each fused region's product is `Spec.lin` of
  `Spec.act` of the aggregate and the layer's bias row with the next weight matrix, and the last region's output is
  `Spec.act` of the last aggregate and the last bias row — which is the reference's result. The graph and the stacked
  parameters are read by every stretch and written by none, so every stretch finds them as launched.
-/
import proofs.«422921_j19928648254210_3_alg».proof.Proof.KernelIdealFrame
import proofs.«422921_j19928648254210_3_alg».proof.Proof.Region0
import proofs.«422921_j19928648254210_3_alg».proof.Proof.Region1
import proofs.«422921_j19928648254210_3_alg».proof.Proof.Region2
import proofs.«422921_j19928648254210_3_alg».proof.Proof.Region3
import proofs.«422921_j19928648254210_3_alg».proof.Proof.HostSide

set_option maxRecDepth 16384

noncomputable section

namespace Cert.KernelIdeal.Result

open Cert.KernelIdeal Cert.KernelIdeal.Gen Cert.KernelIdeal.GenP Cert.KernelIdeal.HostSide Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-! ## At the first region's entry -/

theorem w1_arg0 : W1 m ρ c (Proc.devRef .tc main_arg0) = m ((c : Thread nD τ).loc main_arg0) := kept0_arg0 (W0 m ρ c)
theorem w1_arg1 : W1 m ρ c (Proc.devRef .tc main_arg1) = m ((c : Thread nD τ).loc main_arg1) := kept0_arg1 (W0 m ρ c)
theorem w1_arg2 : W1 m ρ c (Proc.devRef .tc main_arg2) = m ((c : Thread nD τ).loc main_arg2) := kept0_arg2 (W0 m ρ c)
theorem w1_arg3 : W1 m ρ c (Proc.devRef .tc main_arg3) = m ((c : Thread nD τ).loc main_arg3) := kept0_arg3 (W0 m ρ c)
theorem w1_arg4 : W1 m ρ c (Proc.devRef .tc main_arg4) = m ((c : Thread nD τ).loc main_arg4) := kept0_arg4 (W0 m ρ c)
theorem w1_arg5 : W1 m ρ c (Proc.devRef .tc main_arg5) = m ((c : Thread nD τ).loc main_arg5) := kept0_arg5 (W0 m ρ c)
theorem w1_v1 : W1 m ρ c (Proc.devRef .tc main_v1) = val_main_v1 (F := Ideal) (m ((c : Thread nD τ).loc main_arg4)) := weight0 (W0 m ρ c)

/-! ## After the first region: its product is the reference's first product -/

theorem w2_arg1 : W2 m ρ c (Proc.devRef .tc main_arg1) = m ((c : Thread nD τ).loc main_arg1) :=
  (W2_of_ne m ρ c main_arg1 (by decide)).trans (w1_arg1 m ρ c)
theorem w2_arg2 : W2 m ρ c (Proc.devRef .tc main_arg2) = m ((c : Thread nD τ).loc main_arg2) :=
  (W2_of_ne m ρ c main_arg2 (by decide)).trans (w1_arg2 m ρ c)
theorem w2_arg3 : W2 m ρ c (Proc.devRef .tc main_arg3) = m ((c : Thread nD τ).loc main_arg3) :=
  (W2_of_ne m ρ c main_arg3 (by decide)).trans (w1_arg3 m ρ c)
theorem w2_arg4 : W2 m ρ c (Proc.devRef .tc main_arg4) = m ((c : Thread nD τ).loc main_arg4) :=
  (W2_of_ne m ρ c main_arg4 (by decide)).trans (w1_arg4 m ρ c)
theorem w2_arg5 : W2 m ρ c (Proc.devRef .tc main_arg5) = m ((c : Thread nD τ).loc main_arg5) :=
  (W2_of_ne m ρ c main_arg5 (by decide)).trans (w1_arg5 m ρ c)
theorem w2_v2 : W2 m ρ c (Proc.devRef .tc main_v2) = val_main_v4 (F := Ideal) (m ((c : Thread nD τ).loc main_arg0)) (m ((c : Thread nD τ).loc main_arg4)) :=
  (W2_arr m ρ c 2).trans ((Region0.final (V1 m ρ) c).trans
    ((congrArg₂ Cert.Spec.lin (w1_arg0 m ρ c) (w1_v1 m ρ c)).trans rfl))

/-! ## At the second region's entry: the first aggregate, the first bias row, the second weight matrix -/

theorem w3_arg1 : W3 m ρ c (Proc.devRef .tc main_arg1) = m ((c : Thread nD τ).loc main_arg1) :=
  (kept1_arg1 (W2 m ρ c)).trans (w2_arg1 m ρ c)
theorem w3_arg2 : W3 m ρ c (Proc.devRef .tc main_arg2) = m ((c : Thread nD τ).loc main_arg2) :=
  (kept1_arg2 (W2 m ρ c)).trans (w2_arg2 m ρ c)
theorem w3_arg3 : W3 m ρ c (Proc.devRef .tc main_arg3) = m ((c : Thread nD τ).loc main_arg3) :=
  (kept1_arg3 (W2 m ρ c)).trans (w2_arg3 m ρ c)
theorem w3_arg4 : W3 m ρ c (Proc.devRef .tc main_arg4) = m ((c : Thread nD τ).loc main_arg4) :=
  (kept1_arg4 (W2 m ρ c)).trans (w2_arg4 m ρ c)
theorem w3_arg5 : W3 m ρ c (Proc.devRef .tc main_arg5) = m ((c : Thread nD τ).loc main_arg5) :=
  (kept1_arg5 (W2 m ρ c)).trans (w2_arg5 m ρ c)
theorem w3_v15 : W3 m ρ c (Proc.devRef .tc main_v15) = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (agg1 (W2 m ρ c)).trans ?_
  rw [w2_v2, w2_arg1, w2_arg2, w2_arg3]
  exact (Cert.Spec.ref_agg1 _ _ _ _ _).symm
theorem w3_v20 : W3 m ρ c (Proc.devRef .tc main_v20) = val_main_v18 (F := Ideal) (m ((c : Thread nD τ).loc main_arg5)) :=
  (bias1 (W2 m ρ c)).trans (congrArg (val_main_v18 (F := Ideal)) (w2_arg5 m ρ c))
theorem w3_v19 : W3 m ρ c (Proc.devRef .tc main_v19) = val_main_v23 (F := Ideal) (m ((c : Thread nD τ).loc main_arg4)) :=
  (weight1 (W2 m ρ c)).trans (congrArg (val_main_v23 (F := Ideal)) (w2_arg4 m ρ c))

/-! ## After the second region: its product is the reference's second product -/

theorem w4_arg1 : W4 m ρ c (Proc.devRef .tc main_arg1) = m ((c : Thread nD τ).loc main_arg1) :=
  (W4_of_ne m ρ c main_arg1 (by decide)).trans (w3_arg1 m ρ c)
theorem w4_arg2 : W4 m ρ c (Proc.devRef .tc main_arg2) = m ((c : Thread nD τ).loc main_arg2) :=
  (W4_of_ne m ρ c main_arg2 (by decide)).trans (w3_arg2 m ρ c)
theorem w4_arg3 : W4 m ρ c (Proc.devRef .tc main_arg3) = m ((c : Thread nD τ).loc main_arg3) :=
  (W4_of_ne m ρ c main_arg3 (by decide)).trans (w3_arg3 m ρ c)
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)
theorem w4_v21 : W4 m ρ c (Proc.devRef .tc main_v21) = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_arr m ρ c 3).trans ((Region1.final (V3 m ρ) c).trans
    ((congrArg₂ Cert.Spec.lin (congrArg₂ Cert.Spec.act (w3_v15 m ρ c) (w3_v20 m ρ c)) (w3_v19 m ρ c)).trans rfl))

/-! ## At the third region's entry -/

theorem w5_arg1 : W5 m ρ c (Proc.devRef .tc main_arg1) = m ((c : Thread nD τ).loc main_arg1) :=
  (kept2_arg1 (W4 m ρ c)).trans (w4_arg1 m ρ c)
theorem w5_arg2 : W5 m ρ c (Proc.devRef .tc main_arg2) = m ((c : Thread nD τ).loc main_arg2) :=
  (kept2_arg2 (W4 m ρ c)).trans (w4_arg2 m ρ c)
theorem w5_arg3 : W5 m ρ c (Proc.devRef .tc main_arg3) = m ((c : Thread nD τ).loc main_arg3) :=
  (kept2_arg3 (W4 m ρ c)).trans (w4_arg3 m ρ c)
theorem w5_arg4 : W5 m ρ c (Proc.devRef .tc main_arg4) = m ((c : Thread nD τ).loc main_arg4) :=
  (kept2_arg4 (W4 m ρ c)).trans (w4_arg4 m ρ c)
theorem w5_arg5 : W5 m ρ c (Proc.devRef .tc main_arg5) = m ((c : Thread nD τ).loc main_arg5) :=
  (kept2_arg5 (W4 m ρ c)).trans (w4_arg5 m ρ c)
theorem w5_v34 : W5 m ρ c (Proc.devRef .tc main_v34) = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (agg2 (W4 m ρ c)).trans ?_
  rw [w4_v21, w4_arg1, w4_arg2, w4_arg3]
  exact (Cert.Spec.ref_agg2 _ _ _ _ _ _).symm
theorem w5_v39 : W5 m ρ c (Proc.devRef .tc main_v39) = val_main_v40 (F := Ideal) (m ((c : Thread nD τ).loc main_arg5)) :=
  (bias2 (W4 m ρ c)).trans (congrArg (val_main_v40 (F := Ideal)) (w4_arg5 m ρ c))
theorem w5_v38 : W5 m ρ c (Proc.devRef .tc main_v38) = val_main_v45 (F := Ideal) (m ((c : Thread nD τ).loc main_arg4)) :=
  (weight2 (W4 m ρ c)).trans (congrArg (val_main_v45 (F := Ideal)) (w4_arg4 m ρ c))

/-! ## After the third region: its product is the reference's third product -/

theorem w6_arg1 : W6 m ρ c (Proc.devRef .tc main_arg1) = m ((c : Thread nD τ).loc main_arg1) :=
  (W6_of_ne m ρ c main_arg1 (by decide)).trans (w5_arg1 m ρ c)
theorem w6_arg2 : W6 m ρ c (Proc.devRef .tc main_arg2) = m ((c : Thread nD τ).loc main_arg2) :=
  (W6_of_ne m ρ c main_arg2 (by decide)).trans (w5_arg2 m ρ c)
theorem w6_arg3 : W6 m ρ c (Proc.devRef .tc main_arg3) = m ((c : Thread nD τ).loc main_arg3) :=
  (W6_of_ne m ρ c main_arg3 (by decide)).trans (w5_arg3 m ρ c)
theorem w6_arg5 : W6 m ρ c (Proc.devRef .tc main_arg5) = m ((c : Thread nD τ).loc main_arg5) :=
  (W6_of_ne m ρ c main_arg5 (by decide)).trans (w5_arg5 m ρ c)
theorem w6_v40 : W6 m ρ c (Proc.devRef .tc main_v40) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 3).trans ((Region2.final (V5 m ρ) c).trans
    ((congrArg₂ Cert.Spec.lin (congrArg₂ Cert.Spec.act (w5_v34 m ρ c) (w5_v39 m ρ c)) (w5_v38 m ρ c)).trans rfl))

/-! ## At the last region's entry, and its output -/

theorem w7_v53 : W7 m ρ c (Proc.devRef .tc main_v53) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (agg3 (W6 m ρ c)).trans ?_
  rw [w6_v40, w6_arg1, w6_arg2, w6_arg3]
  exact (Cert.Spec.ref_agg3 _ _ _ _ _ _).symm
theorem w7_v56 : W7 m ρ c (Proc.devRef .tc main_v56) = val_main_v62 (F := Ideal) (m ((c : Thread nD τ).loc main_arg5)) :=
  (bias3 (W6 m ρ c)).trans (congrArg (val_main_v62 (F := Ideal)) (w6_arg5 m ρ c))

/-- THE RESULT: after the last region the result buffer holds the reference's last stage of the arguments as launched. -/
theorem result : W8 m ρ c (Proc.devRef .tc main_v57) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 2).trans ((Region3.final (V7 m ρ) c).trans
    ((congrArg₂ Cert.Spec.act (w7_v53 m ρ c) (w7_v56 m ρ c)).trans rfl))

end Cert.KernelIdeal.Result

end
-- ==== Proof.lean ====
/-
  A three-layer graph convolution, h ↦ relu (A · (h · W_l) + b_l) for l = 0, 1, 2, with the sparse aggregation
  A · y written as gather-by-source, scale-by-edge-weight, sum-by-destination. The kernel computes the dense parts in
  four pipelined regions — the first product; twice the previous layer's bias and rectifier fused with the next product;
  the last bias and rectifier — over 10000-row blocks, with narrowed formats in front of each product, and leaves the
  aggregation to the same host operations the reference uses. Over the extended reals a change of format is the
  identity, a block's product is the whole product's block, and ten blocks tile the 100000 rows, so region by region
  the kernel's buffers hold the reference's own stages (KernelValue.lean), and the result buffers of the two programs,
  run from memories that agree on the arguments, hold one and the same function of them. No finiteness of the inputs
  is used: both sides are the same sums and maxima, term by term.
-/
import proofs.«422921_j19928648254210_3_alg».proof.Defs
import proofs.«422921_j19928648254210_3_alg».proof.Proof.KernelFrame
import proofs.«422921_j19928648254210_3_alg».proof.Proof.KernelIdealFrame
import proofs.«422921_j19928648254210_3_alg».proof.Proof.KernelRun
import proofs.«422921_j19928648254210_3_alg».proof.Proof.KernelValue
import proofs.«422921_j19928648254210_3_alg».proof.Proof.Gen.ReferenceIdeal
import proofs.«422921_j19928648254210_3_alg».proof.Proof.Gen.ReferenceIdeal.Run
import proofs.«422921_j19928648254210_3_alg».proof.Proof.Gen.ReferenceIdeal.Read
import proofs.«422921_j19928648254210_3_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the kernel over the extended reals is the kernel's own text. -/
theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v65_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
